-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x512 : Shape := ⟨2, ![1024, 512]⟩
abbrev S512x512 : Shape := ⟨2, ![512, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x2048.size a
  hwx0_3 : ∀ i : grid0.Coords, EltTy.bits .f32 = 32 ∨ (Rect.block (s := S8192x2048) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S1x2048, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  transposes_S2048x2048_S2048x2048_1_0 : S2048x2048.Transposes [1, 0] S2048x2048
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  A block-diagonal linear layer, as mathematics on the extended reals. The 2048 input features and the 2048 outputs
  are cut into four blocks of 512; output c, in block c / 512, depends only on the 512 features of its own block:
      out[r, c] = (∑ k < 512, x[r, 512·(c/512) + k] · W[c, 512·(c/512) + k]) + b[c].
  The law that joins a dense contraction over all 2048 features against a mask to this sum: a weight
  multiplied by a mask that is one inside the block and zero outside it contributes its product inside and nothing
  outside (on the extended reals a product with zero is zero whatever the other factor), so the long sum is the
  block's sum.
-/
import Idealize.ShloMosaic.PureOps.Ideal
import Idealize.ShloMosaic.Lib.ValueIdx

noncomputable section

namespace BlockDiagLinear

open Idealize.ShloMosaic Idealize.ShloMosaic.ValueIdx

/-- Feature k of block q, as a feature number. -/
def feat (q : Fin 4) (k : Fin 512) : Fin 2048 := ⟨q.val * 512 + k.val, by omega⟩

/-- The block an output (or a feature) belongs to. -/
def blockOf (c : Fin 2048) : Fin 4 := ⟨c.val / 512, by omega⟩

theorem feat_val (q : Fin 4) (k : Fin 512) : (feat q k).val = q.val * 512 + k.val := rfl

theorem blockOf_val (c : Fin 2048) : (blockOf c).val = c.val / 512 := rfl

/-- The layer's output at row r and output c: the sum over the 512 features of c's block of input times weight, plus
    the bias at c. -/
def out (x : (⟨2, ![8192, 2048]⟩ : Shape).Idx → EReal) (W : (⟨2, ![2048, 2048]⟩ : Shape).Idx → EReal)
    (b : (⟨1, ![2048]⟩ : Shape).Idx → EReal) (r : Fin 8192) (c : Fin 2048) : EReal :=
  (∑ k : Fin 512, x (ix2 r (feat (blockOf c) k)) * W (ix2 c (feat (blockOf c) k))) + b (ix1 c)

/-- The whole output array. -/
def layer (x : (⟨2, ![8192, 2048]⟩ : Shape).Idx → EReal) (W : (⟨2, ![2048, 2048]⟩ : Shape).Idx → EReal)
    (b : (⟨1, ![2048]⟩ : Shape).Idx → EReal) : (⟨2, ![8192, 2048]⟩ : Shape).Idx → EReal :=
  fun i => out x W b (i 0) (i 1)

theorem layer_ix2 (x : (⟨2, ![8192, 2048]⟩ : Shape).Idx → EReal) (W : (⟨2, ![2048, 2048]⟩ : Shape).Idx → EReal)
    (b : (⟨1, ![2048]⟩ : Shape).Idx → EReal) (r : Fin 8192) (c : Fin 2048) : layer x W b (ix2 r c) = out x W b r c := rfl

/-- A sum over all 2048 features of f · (g · μ), where μ is one on block q and zero off it, is the sum of f · g over
    the 512 features of block q. -/
theorem masked_sum (q : Fin 4) (f g μ : Fin 2048 → EReal)
    (h1 : ∀ i : Fin 2048, i.val / 512 = q.val → μ i = 1) (h0 : ∀ i : Fin 2048, i.val / 512 ≠ q.val → μ i = 0) :
    ∑ i : Fin 2048, f i * (g i * μ i) = ∑ k : Fin 512, f (feat q k) * g (feat q k) := by
  symm
  refine Finset.sum_of_injOn (feat q) ?_ ?_ ?_ ?_
  · intro a _ b _ hab
    have h := congrArg Fin.val hab
    rw [feat_val, feat_val] at h
    exact Fin.ext (by omega)
  · intro a _
    exact Finset.mem_coe.2 (Finset.mem_univ _)
  · intro i _ hi
    have hne : i.val / 512 ≠ q.val := by
      intro he
      apply hi
      have hlt := i.isLt
      refine ⟨⟨i.val - q.val * 512, by omega⟩, Finset.mem_coe.2 (Finset.mem_univ _), Fin.ext ?_⟩
      show q.val * 512 + (i.val - q.val * 512) = i.val
      omega
    rw [h0 i hne, mul_zero, mul_zero]
  · intro k _
    have hk : (feat q k).val / 512 = q.val := by
      rw [feat_val]
      have := k.isLt
      omega
    rw [h1 _ hk, mul_one]

end BlockDiagLinear

end
-- ==== Proof.KernelValue.lean ====
/-
  What the idealized kernel leaves in its result array. The grid is 4 × 8: point (q, g) takes rows 1024·g … 1024·g + 1023
  of x restricted to the 512 features of block q, the diagonal 512 × 512 tile (q, q) of W, and the 512 biases of block q,
  and writes the tile (g, q) of the result: entry (p, j) of that tile is
      (∑ k < 512, xtile[p, k] · Wtile[j, k]) + btile[j]
  (the weight tile enters the product transposed; the accumulator is zero; a change of float format is the identity).
  Read through the tiles' places in the arrays this is the layer of the specification at row 1024·g + p and output
  512·q + j, and the 32 tiles cover the result array.
-/
import proofs.«122442_j74938589381030_1_alg».proof.Proof.Gen.KernelIdeal.Value
import proofs.«122442_j74938589381030_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)
open BlockDiagLinear

/-! ## The body's arithmetic at an entry of the tile -/

theorem lhs_dot_0 (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

theorem lhs_dot_1 (j : S1024x512.Idx) (q : dot_S1024x512_S512x512_S1024x512_1_0_0_1_n_n.contr.Idx) :
    (dot_S1024x512_S512x512_S1024x512_1_0_0_1_n_n.lhsIdx j q 1).val = (q ⟨0, by decide⟩).val :=
  dot_S1024x512_S512x512_S1024x512_1_0_0_1_n_n.lhsIdx_val_of_single rfl j q

theorem rhs_dot_0 (j : S1024x512.Idx) (q : dot_S1024x512_S512x512_S1024x512_1_0_0_1_n_n.contr.Idx) :
    (dot_S1024x512_S512x512_S1024x512_1_0_0_1_n_n.rhsIdx j q 0).val = (q ⟨0, by decide⟩).val :=
  dot_S1024x512_S512x512_S1024x512_1_0_0_1_n_n.rhsIdx_val_of_single rfl j q

theorem rhs_dot_1 (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry (p, j) of what the body stores: the row p of the input tile against the row j of the weight tile, plus the
    bias tile at j. -/
theorem pay_apply (x0 : Vec Ideal S1024x512 .f32) (x1 : Vec Ideal S512x512 .f32) (x2 : Vec Ideal S1x512 .f32)
    (p : Fin 1024) (j : Fin 512) :
    k0_pay1 x0 x1 x2 (ix2 p j) = (∑ k : Fin 512, x0 (ix2 p k) * x1 (ix2 j k)) + x2 (ix2 (0 : Fin 1) j) := by
  unfold k0_pay1
  dsimp only
  rw [addf_apply, broadcastTo_1b_ab_apply, shapeCast_self]
  refine congrArg (· + x2 (ix2 (0 : Fin 1) j)) ?_
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p j) ((ValueIdx.contrEquiv1 dot_S1024x512_S512x512_S1024x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S512x512_S1024x512_1_0_0_1_n_n.rhsIdx (ix2 p j) ((ValueIdx.contrEquiv1 dot_S1024x512_S512x512_S1024x512_1_0_0_1_n_n 512 rfl rfl).symm k) = ix2 k j := funext fun a => Fin.ext (by
    match a with
    | ⟨0, _⟩ => exact (rhs_dot_0 _ _).trans hk
    | ⟨1, _⟩ => exact rhs_dot_1 _ _)
  rw [el, er, truncf_apply, transpose_ix2_apply, truncf_apply]

variable (m : (ℓ : Loc nD τ sig) → Buf (Elt Ideal) ℓ) (ρ : Dev nD → PrngReg)

/-! ## The arrays the region finds -/

/-- The bias as the region finds it: the host has cast the 2048 biases to one row of 2048. -/
theorem V_bias (c : Dev nD) (q : Fin 2048) :
    (V m c main_v0 : S1x2048.Idx → EReal) (ix2 (0 : Fin 1) q) = (m ((c : Thread nD τ).loc main_arg2) : S2048.Idx → EReal) (ix1 q) := by
  have e : (V m c main_v0 : S1x2048.Idx → EReal) = shapeCast S1x2048 (m ((c : Thread nD τ).loc main_arg2) : S2048.Idx → EReal) shapeCasts_S2048_S1x2048 := by
    dsimp only [Gen.V, Gen.hostOps0]
    after_results
    rfl
  rw [e]
  exact shapeCast_a_1a_apply _ _ _ _

/-! ## The tiles' places -/

theorem hz : (![0, 0] : Fin 2 → Nat) = fun _ => 0 := funext fun a => by fin_cases a <;> rfl

/-- The printed index maps, decided over the 32 grid points: the input tile sits where the result tile sits; the weight
    tile is the diagonal one of the result tile's column block; the bias tile is that block's; the result tile's
    row block is below 8 and its column block below 4. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (1 : Fin 2)
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every tile of the result is some point's. -/
theorem idx_onto : ∀ (g : Fin 8) (q : Fin 4), ∃ t : Fin cfg0.N, win0_3.index t = ![g.val, q.val] :=
  (by decide +kernel : ∀ (g : Fin 8) (q : Fin 4), ∃ t : Fin grid0.N, win0_3.index t = ![g.val, q.val])

/-! ## What a point writes back -/

/-- What point t writes back is its tile of the layer of the arrays the region finds. -/
theorem flushed_eq (c : Dev nD) (t : Fin cfg0.N) :
    (dats m 0 c).flushed 3 t
      = ((cfg0.win 3).blk t).view.read (Elt Ideal)
          (layer (V m c main_arg0) (V m c main_arg1) (m ((c : Thread nD τ).loc main_arg2))) := by
  rw [Value.flushed3]
  unfold out0_3
  rw [View.canon_unit_zero hz]
  simp only [View.ld_unit_zero (S := S1024x512) hz, View.ld_unit_zero (S := S512x512) hz, View.ld_unit_zero (S := S1x512) hz]
  obtain ⟨e0, e1, e2, e3, e4, e5, b0, b1⟩ := idx_facts t
  funext y
  obtain ⟨p, j, rfl⟩ : ∃ (p : Fin 1024) (j : Fin 512), y = ix2 p j := ⟨y 0, y 1, eq_ix2 y⟩
  have hp := p.isLt
  have hj := j.isLt
  show k0_pay1 (iblk m c 0 t) (iblk m c 1 t) (iblk m c 2 t) (ix2 p j)
    = layer (V m c main_arg0) (V m c main_arg1) (m ((c : Thread nD τ).loc main_arg2)) (((cfg0.win 3).blk t).view.emb (ix2 p j))
  refine (pay_apply _ _ _ p j).trans ?_
  have hE : ((cfg0.win 3).blk t).view.emb (ix2 p j)
      = ix2 (⟨win0_3.index t (0 : Fin 2) * 1024 + p.val, by omega⟩ : Fin 8192) (⟨win0_3.index t (1 : Fin 2) * 512 + j.val, by omega⟩ : Fin 2048) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * j.val = win0_3.index t (1 : Fin 2) * 512 + j.val; omega
  rw [hE, layer_ix2]
  unfold out
  refine congrArg₂ (· + ·) (Finset.sum_congr rfl fun k _ => congrArg₂ (· * ·) ?_ ?_) ?_
  · have hk := k.isLt
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 1024 + 1 * p.val = win0_3.index t (0 : Fin 2) * 1024 + p.val; omega
    | ⟨1, _⟩ =>
      show win0_0.index t (1 : Fin 2) * 512 + 1 * k.val = (win0_3.index t (1 : Fin 2) * 512 + j.val) / 512 * 512 + k.val
      omega
  · have hk := k.isLt
    show V m c main_arg1 (((cfg0.win 1).blk t).view.emb (ix2 j k)) = V m c main_arg1 _
    refine congrArg (V m c main_arg1) (funext fun a => Fin.ext ?_)
    match a with
    | ⟨0, _⟩ => show win0_1.index t (0 : Fin 2) * 512 + 1 * j.val = win0_3.index t (1 : Fin 2) * 512 + j.val; omega
    | ⟨1, _⟩ =>
      show win0_1.index t (1 : Fin 2) * 512 + 1 * k.val = (win0_3.index t (1 : Fin 2) * 512 + j.val) / 512 * 512 + k.val
      omega
  · refine Eq.trans ?_ (V_bias m c _)
    show V m c main_v0 (((cfg0.win 2).blk t).view.emb (ix2 (0 : Fin 1) j)) = V m c main_v0 _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 512 + 1 * j.val = win0_3.index t (1 : Fin 2) * 512 + j.val; omega

/-! ## The tiles cover the result -/

/-- An index of the result array is in point t's tile iff each coordinate is in the tile's range on its axis. -/
theorem mem_blk (t : Fin cfg0.N) (i : S8192x2048.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every index of the result array lies in the tile of the point whose row block is its row over 1024 and whose column
    block is its column over 512. -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The result array, and the run -/

/-- The result array after the run is the layer of the three argument arrays. -/
theorem final (c : Dev nD) :
    (dats m 0 c).arrAt 3 cfg0.N
      = layer (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) cover

/-- Every weakly fair execution of the idealized kernel's program terminates with the result array at the layer of the
    arguments, and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.RefRun.lean ====
/-
  The reference program's run, read back. Its @main is a straight line of host operations once the two calls of the
  outlined integer floor division (and the select each of them calls) are unfolded at their call sites over the calls'
  own buffers: the row numbers and the column numbers 0 … 2047 each divided by 512 (the block a feature belongs to),
  the two compared for equality on the 2048 × 2048 square and the bit converted to a float (the block-diagonal mask),
  the weight transposed and multiplied by the mask, the product with the input, the bias added along the rows.
  Every weakly fair execution terminates with the result buffer at that composed term of the argument arrays.
-/
import proofs.«122442_j74938589381030_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The block number of each of the 2048 features: jnp's floor division of 0 … 2047 by 512 as it is lowered — the
    truncated quotient, less one where the signs of dividend and divisor differ and the remainder is not zero. -/
def blockId : IVec S2048 32 :=
  select
    (andi
      (cmpi .ne (signi (iotaInDim S2048 32 0)) (broadcastInDim S2048 ![] bcast_S_S2048 (signi (id (constantI S_ 32 512#32)))))
      (cmpi .ne (Host.remsi (iotaInDim S2048 32 0) (broadcastInDim S2048 ![] bcast_S_S2048 (id (constantI S_ 32 512#32))))
        (broadcastInDim S2048 ![] bcast_S_S2048 (constantI S_ 32 0#32))))
    (subi (Host.divsi (iotaInDim S2048 32 0) (broadcastInDim S2048 ![] bcast_S_S2048 (id (constantI S_ 32 512#32))))
      (broadcastInDim S2048 ![] bcast_S_S2048 (constantI S_ 32 1#32)))
    (Host.divsi (iotaInDim S2048 32 0) (broadcastInDim S2048 ![] bcast_S_S2048 (id (constantI S_ 32 512#32))))

/-- The block-diagonal mask as a float array: at (i, c) the bit "feature i and output c lie in the same block". -/
def mask : FVec F S2048x2048 .f32 :=
  uitofp .f32 (cmpi .eq
    (broadcastInDim S2048x2048 ![0, 1] bcast_S2048x1_S2048x2048_0_1 (broadcastInDim S2048x1 ![0] bcast_S2048_S2048x1_0 blockId))
    (broadcastInDim S2048x2048 ![0, 1] bcast_S1x2048_S2048x2048_0_1 (broadcastInDim S1x2048 ![1] bcast_S2048_S1x2048_1 blockId)))

/-- What the reference computes from its three arguments: x · (Wᵀ ⊙ mask) + b, the bias along the rows. -/
def result (x : FVec F S8192x2048 .f32) (W : FVec F S2048x2048 .f32) (b : FVec F S2048 .f32) : FVec F S8192x2048 .f32 :=
  addf
    (Host.dotGeneral dot_S8192x2048_S2048x2048_S8192x2048_1_0_0_1_n_n none x
      (mulf (transpose S2048x2048 [1, 0] W transposes_S2048x2048_S2048x2048_1_0) mask))
    (broadcastInDim S8192x2048 ![0, 1] bcast_S1x2048_S8192x2048_0_1 (broadcastInDim S1x2048 ![1] bcast_S2048_S1x2048_1 b))

/-- @main's operations in order, the callees' listed at their call sites over each call's buffers. -/
abbrev ops : List (HloOp τ sig (Elt F)) :=
  [ nullary main_v0 (iotaInDim S2048 32 0),
    nullary main_c (constantI S_ 32 512#32),
    TRef.unary (.of main_c) main_call0.v0 id,
    TRef.unary main_call0.v0 main_call0.v1 (broadcastInDim S2048 ![] bcast_S_S2048),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S2048 ![] bcast_S_S2048),
    TRef.binary main_call0.v3 main_call0.v5 main_call0.v6 (cmpi .ne),
    TRef.unary main_call0.v0 main_call0.v7 (broadcastInDim S2048 ![] bcast_S_S2048),
    TRef.binary (.of main_v0) main_call0.v7 main_call0.v8 Host.remsi,
    TRef.nullary main_call0.c (constantI S_ 32 0#32),
    TRef.unary main_call0.c main_call0.v9 (broadcastInDim S2048 ![] bcast_S_S2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2048 ![] bcast_S_S2048),
    TRef.binary main_call0.v2 main_call0.v12 main_call0.v13 subi,
    TRef.ternary main_call0.v11 main_call0.v13 main_call0.v2 main_call0.call0.v0 select,
    nullary main_v2 (iotaInDim S2048 32 0),
    nullary main_c_0 (constantI S_ 32 512#32),
    TRef.unary (.of main_c_0) main_call1.v0 id,
    TRef.unary main_call1.v0 main_call1.v1 (broadcastInDim S2048 ![] bcast_S_S2048),
    TRef.binary (.of main_v2) main_call1.v1 main_call1.v2 Host.divsi,
    TRef.unary (.of main_v2) main_call1.v3 signi,
    TRef.unary main_call1.v0 main_call1.v4 signi,
    TRef.unary main_call1.v4 main_call1.v5 (broadcastInDim S2048 ![] bcast_S_S2048),
    TRef.binary main_call1.v3 main_call1.v5 main_call1.v6 (cmpi .ne),
    TRef.unary main_call1.v0 main_call1.v7 (broadcastInDim S2048 ![] bcast_S_S2048),
    TRef.binary (.of main_v2) main_call1.v7 main_call1.v8 Host.remsi,
    TRef.nullary main_call1.c (constantI S_ 32 0#32),
    TRef.unary main_call1.c main_call1.v9 (broadcastInDim S2048 ![] bcast_S_S2048),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S2048 ![] bcast_S_S2048),
    TRef.binary main_call1.v2 main_call1.v12 main_call1.v13 subi,
    TRef.ternary main_call1.v11 main_call1.v13 main_call1.v2 main_call1.call0.v0 select,
    unary main_v1 main_v4 (broadcastInDim S2048x1 ![0] bcast_S2048_S2048x1_0 : (⟨S2048, .i32⟩ : BufTy).Contents (Elt F) → (⟨S2048x1, .i32⟩ : BufTy).Contents (Elt F)),
    unary main_v3 main_v5 (broadcastInDim S1x2048 ![1] bcast_S2048_S1x2048_1 : (⟨S2048, .i32⟩ : BufTy).Contents (Elt F) → (⟨S1x2048, .i32⟩ : BufTy).Contents (Elt F)),
    unary main_v4 main_v6 (broadcastInDim S2048x2048 ![0, 1] bcast_S2048x1_S2048x2048_0_1 : (⟨S2048x1, .i32⟩ : BufTy).Contents (Elt F) → (⟨S2048x2048, .i32⟩ : BufTy).Contents (Elt F)),
    unary main_v5 main_v7 (broadcastInDim S2048x2048 ![0, 1] bcast_S1x2048_S2048x2048_0_1 : (⟨S1x2048, .i32⟩ : BufTy).Contents (Elt F) → (⟨S2048x2048, .i32⟩ : BufTy).Contents (Elt F)),
    binary main_v6 main_v7 main_v8 (cmpi .eq : (⟨S2048x2048, .i32⟩ : BufTy).Contents (Elt F) → (⟨S2048x2048, .i32⟩ : BufTy).Contents (Elt F) → (⟨S2048x2048, .i1⟩ : BufTy).Contents (Elt F)),
    unary main_v8 main_v9 (uitofp .f32 : (⟨S2048x2048, .i1⟩ : BufTy).Contents (Elt F) → (⟨S2048x2048, .f32⟩ : BufTy).Contents (Elt F)),
    unary main_arg1 main_v10 ((transpose S2048x2048 [1, 0] · transposes_S2048x2048_S2048x2048_1_0) : (⟨S2048x2048, .f32⟩ : BufTy).Contents (Elt F) → (⟨S2048x2048, .f32⟩ : BufTy).Contents (Elt F)),
    binary main_v10 main_v9 main_v11 (mulf : (⟨S2048x2048, .f32⟩ : BufTy).Contents (Elt F) → (⟨S2048x2048, .f32⟩ : BufTy).Contents (Elt F) → (⟨S2048x2048, .f32⟩ : BufTy).Contents (Elt F)),
    binary main_arg0 main_v11 main_v12 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    unary main_arg2 main_v13 (broadcastInDim S1x2048 ![1] bcast_S2048_S1x2048_1 : (⟨S2048, .f32⟩ : BufTy).Contents (Elt F) → (⟨S1x2048, .f32⟩ : BufTy).Contents (Elt F)),
    unary main_v13 main_v14 (broadcastInDim S8192x2048 ![0, 1] bcast_S1x2048_S8192x2048_0_1 : (⟨S1x2048, .f32⟩ : BufTy).Contents (Elt F) → (⟨S8192x2048, .f32⟩ : BufTy).Contents (Elt F)),
    binary main_v12 main_v14 main_v15 (addf : (⟨S8192x2048, .f32⟩ : BufTy).Contents (Elt F) → (⟨S8192x2048, .f32⟩ : BufTy).Contents (Elt F) → (⟨S8192x2048, .f32⟩ : BufTy).Contents (Elt F)) ]

set_option maxRecDepth 2048 in
/-- @main is that straight line: the two functions' definitions unfolded at their calls and the records at their
    fields, both sides are one chain of host steps once sequencing is reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub ..⟩

/-- The operations' fold at the result buffer is the composed term of the argument buffers' contents. -/
theorem result_eq (V : Valuation τ sig (Elt F)) :
    after ops V (main_v15 : DevRef τ sig)
      = result (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

/-- On every device, from any memory with zero counters: every weakly fair execution of @main terminates with the
    result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v15).trans (result_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result read at an index, at the ideal values. Row r, output c of x · (Wᵀ ⊙ mask) + b is
      (∑ i < 2048, x[r, i] · (W[c, i] · mask[i, c])) + b[c],
  and mask[i, c] is one when feature i and output c lie in the same block of 512 and zero otherwise: the lowered
  floor division of a feature number below 2048 by 512 is the plain quotient (the numbers are not negative, so
  the correction for differing signs never applies), and two quotients below four are equal as words exactly when they
  are equal as numbers. The masked sum is then the sum over the block of c alone: the layer of the specification.
-/
import proofs.«122442_j74938589381030_1_alg».proof.Proof.RefRun
import proofs.«122442_j74938589381030_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open BlockDiagLinear

/-! ## The block number of a feature -/

/-- The sign of a word, as the host's integer sign computes it. -/
def sgnWord (a : BitVec 32) : BitVec 32 := if a = 0 then 0 else if a.msb then -1 else 1

/-- The lowered floor division by 512 at one word: the truncated quotient, less one where the signs of dividend and
    divisor differ and the remainder is not zero. -/
def floorDiv512 (a : BitVec 32) : BitVec 32 :=
  Scalar.select
    (IntOp.andi (IntOp.cmpi .ne (sgnWord a) (sgnWord 512#32)) (IntOp.cmpi .ne (IntOp.remsi .host a 512#32) 0#32))
    (IntOp.subi (IntOp.divsi .host a 512#32) 1#32)
    (IntOp.divsi .host a 512#32)

/-- The block-number array at feature i is that word function of i. -/
theorem blockId_apply (i : Fin 2048) : blockId (ix1 i) = floorDiv512 (BitVec.ofNat 32 i.val) := rfl

/-- For each of the 2048 feature numbers the lowered floor division is the quotient by 512 (evaluated, feature by
    feature). -/
theorem floorDiv512_eq : ∀ i : Fin 2048, floorDiv512 (BitVec.ofNat 32 i.val) = BitVec.ofNat 32 (i.val / 512) := by
  decide +kernel

/-! ## Broadcasts of a vector along the rows or the columns of a rectangle -/

/-- A vector laid along the first axis of a rectangle reads, at (p, q), the vector at p. -/
theorem bcast_rows_apply {α : Type} {n l : Nat} (h₁ : (⟨1, ![n]⟩ : Shape).BroadcastsInDim ⟨2, ![n, 1]⟩ ![0])
    (h₂ : (⟨2, ![n, 1]⟩ : Shape).BroadcastsInDim ⟨2, ![n, l]⟩ ![0, 1]) (v : (⟨1, ![n]⟩ : Shape).Idx → α) (p : Fin n) (q : Fin l) :
    broadcastInDim ⟨2, ![n, l]⟩ ![0, 1] h₂ (broadcastInDim ⟨2, ![n, 1]⟩ ![0] h₁ v) (ix2 p q) = v (ix1 p) := by
  have hp := p.isLt
  refine (broadcastInDim_apply ![0, 1] h₂ _ (ix2 p q) (ix2 p (0 : Fin 1)) (fun a => ?_)).trans
    (broadcastInDim_apply ![0] h₁ v (ix2 p (0 : Fin 1)) (ix1 p) (fun a => ?_))
  · match a with
    | ⟨0, _⟩ =>
      show p.val = if n = 1 then 0 else p.val
      by_cases h : n = 1
      · rw [if_pos h]; omega
      · rw [if_neg h]
    | ⟨1, _⟩ => rfl
  · match a with
    | ⟨0, _⟩ =>
      show p.val = if n = 1 then 0 else p.val
      by_cases h : n = 1
      · rw [if_pos h]; omega
      · rw [if_neg h]

/-- A vector laid along the second axis of a rectangle reads, at (p, q), the vector at q. -/
theorem bcast_cols_apply {α : Type} {n l : Nat} (h₁ : (⟨1, ![l]⟩ : Shape).BroadcastsInDim ⟨2, ![1, l]⟩ ![1])
    (h₂ : (⟨2, ![1, l]⟩ : Shape).BroadcastsInDim ⟨2, ![n, l]⟩ ![0, 1]) (v : (⟨1, ![l]⟩ : Shape).Idx → α) (p : Fin n) (q : Fin l) :
    broadcastInDim ⟨2, ![n, l]⟩ ![0, 1] h₂ (broadcastInDim ⟨2, ![1, l]⟩ ![1] h₁ v) (ix2 p q) = v (ix1 q) := by
  have hq := q.isLt
  refine (broadcastInDim_apply ![0, 1] h₂ _ (ix2 p q) (ix2 (0 : Fin 1) q) (fun a => ?_)).trans
    (broadcastInDim_apply ![1] h₁ v (ix2 (0 : Fin 1) q) (ix1 q) (fun a => ?_))
  · match a with
    | ⟨0, _⟩ => rfl
    | ⟨1, _⟩ =>
      show q.val = if l = 1 then 0 else q.val
      by_cases h : l = 1
      · rw [if_pos h]; omega
      · rw [if_neg h]
  · match a with
    | ⟨0, _⟩ =>
      show q.val = if l = 1 then 0 else q.val
      by_cases h : l = 1
      · rw [if_pos h]; omega
      · rw [if_neg h]

/-! ## The mask -/

/-- The mask at (feature i, output c): one when the two lie in the same block, zero otherwise. -/
theorem mask_apply (i c : Fin 2048) :
    mask (F := Ideal) (ix2 i c) = if i.val / 512 = c.val / 512 then (1 : EReal) else 0 := by
  show (((IntOp.cmpi .eq
      (broadcastInDim S2048x2048 ![0, 1] bcast_S2048x1_S2048x2048_0_1 (broadcastInDim S2048x1 ![0] bcast_S2048_S2048x1_0 blockId) (ix2 i c))
      (broadcastInDim S2048x2048 ![0, 1] bcast_S1x2048_S2048x2048_0_1 (broadcastInDim S1x2048 ![1] bcast_S2048_S1x2048_1 blockId) (ix2 i c))).toNat : ℝ) : EReal) = _
  rw [bcast_rows_apply, bcast_cols_apply, blockId_apply, blockId_apply, floorDiv512_eq, floorDiv512_eq]
  have hi := i.isLt
  have hc := c.isLt
  by_cases h : i.val / 512 = c.val / 512
  · rw [if_pos h, h, StableHlo.Predicate.cmpi_eq_iff.2 rfl]
    simp
  · rw [if_neg h]
    have hne : ¬ IntOp.cmpi .eq (BitVec.ofNat 32 (i.val / 512)) (BitVec.ofNat 32 (c.val / 512)) = 1#1 := by
      rw [StableHlo.Predicate.cmpi_eq_iff]
      intro he
      have := congrArg BitVec.toNat he
      simp only [BitVec.toNat_ofNat] at this
      omega
    rw [eq_zero_of_ne_one hne]
    simp

/-! ## The contraction's operand indices -/

theorem lhs_dot_0 (j : S8192x2048.Idx) (q : dot_S8192x2048_S2048x2048_S8192x2048_1_0_0_1_n_n.contr.Idx) :
    (dot_S8192x2048_S2048x2048_S8192x2048_1_0_0_1_n_n.lhsIdx j q 0).val = (j 0).val := by
  unfold DotDims.lhsIdx
  rw [dif_neg (show ¬(0 : Fin S8192x2048.rank) ∈ dot_S8192x2048_S2048x2048_S8192x2048_1_0_0_1_n_n.lhsBatch by decide), dif_pos (show (0 : Fin S8192x2048.rank) ∈ dot_S8192x2048_S2048x2048_S8192x2048_1_0_0_1_n_n.lhsNonContracting by decide)]
  rfl

theorem lhs_dot_1 (j : S8192x2048.Idx) (q : dot_S8192x2048_S2048x2048_S8192x2048_1_0_0_1_n_n.contr.Idx) :
    (dot_S8192x2048_S2048x2048_S8192x2048_1_0_0_1_n_n.lhsIdx j q 1).val = (q ⟨0, by decide⟩).val :=
  dot_S8192x2048_S2048x2048_S8192x2048_1_0_0_1_n_n.lhsIdx_val_of_single rfl j q

theorem rhs_dot_0 (j : S8192x2048.Idx) (q : dot_S8192x2048_S2048x2048_S8192x2048_1_0_0_1_n_n.contr.Idx) :
    (dot_S8192x2048_S2048x2048_S8192x2048_1_0_0_1_n_n.rhsIdx j q 0).val = (q ⟨0, by decide⟩).val :=
  dot_S8192x2048_S2048x2048_S8192x2048_1_0_0_1_n_n.rhsIdx_val_of_single rfl j q

theorem rhs_dot_1 (j : S8192x2048.Idx) (q : dot_S8192x2048_S2048x2048_S8192x2048_1_0_0_1_n_n.contr.Idx) :
    (dot_S8192x2048_S2048x2048_S8192x2048_1_0_0_1_n_n.rhsIdx j q 1).val = (j 1).val := by
  unfold DotDims.rhsIdx
  rw [dif_neg (show ¬(1 : Fin S2048x2048.rank) ∈ dot_S8192x2048_S2048x2048_S8192x2048_1_0_0_1_n_n.rhsBatch by decide), dif_pos (show (1 : Fin S2048x2048.rank) ∈ dot_S8192x2048_S2048x2048_S8192x2048_1_0_0_1_n_n.rhsNonContracting by decide)]
  rfl

/-! ## The result at an index -/

/-- Row r, output c of the reference's result is the layer's value there. -/
theorem result_apply (x : FVec Ideal S8192x2048 .f32) (W : FVec Ideal S2048x2048 .f32) (b : FVec Ideal S2048 .f32)
    (r : Fin 8192) (c : Fin 2048) : result (F := Ideal) x W b (ix2 r c) = out x W b r c := by
  unfold result out
  rw [addf_apply, bcast_cols_apply]
  refine congrArg (· + b (ix1 c)) ?_
  simp only [Host.dotGeneral]
  rw [Ideal.dotGeneral_apply, ← Equiv.sum_comp (ValueIdx.contrEquiv1 dot_S8192x2048_S2048x2048_S8192x2048_1_0_0_1_n_n 2048 rfl rfl).symm]
  have hterm : ∀ k : Fin 2048,
      x (dot_S8192x2048_S2048x2048_S8192x2048_1_0_0_1_n_n.lhsIdx (ix2 r c) ((ValueIdx.contrEquiv1 dot_S8192x2048_S2048x2048_S8192x2048_1_0_0_1_n_n 2048 rfl rfl).symm k))
        * mulf (transpose S2048x2048 [1, 0] W transposes_S2048x2048_S2048x2048_1_0) (mask (F := Ideal))
            (dot_S8192x2048_S2048x2048_S8192x2048_1_0_0_1_n_n.rhsIdx (ix2 r c) ((ValueIdx.contrEquiv1 dot_S8192x2048_S2048x2048_S8192x2048_1_0_0_1_n_n 2048 rfl rfl).symm k))
      = x (ix2 r k) * (W (ix2 c k) * (if k.val / 512 = (blockOf c).val then (1 : EReal) else 0)) := by
    intro k
    have hk := ValueIdx.contrEquiv1_symm_val dot_S8192x2048_S2048x2048_S8192x2048_1_0_0_1_n_n 2048 rfl rfl k
    have el : dot_S8192x2048_S2048x2048_S8192x2048_1_0_0_1_n_n.lhsIdx (ix2 r c) ((ValueIdx.contrEquiv1 dot_S8192x2048_S2048x2048_S8192x2048_1_0_0_1_n_n 2048 rfl rfl).symm k) = ix2 r k := funext fun a => Fin.ext (by
      match a with
      | ⟨0, _⟩ => exact lhs_dot_0 _ _
      | ⟨1, _⟩ => exact (lhs_dot_1 _ _).trans hk)
    have er : dot_S8192x2048_S2048x2048_S8192x2048_1_0_0_1_n_n.rhsIdx (ix2 r c) ((ValueIdx.contrEquiv1 dot_S8192x2048_S2048x2048_S8192x2048_1_0_0_1_n_n 2048 rfl rfl).symm k) = ix2 k c := funext fun a => Fin.ext (by
      match a with
      | ⟨0, _⟩ => exact (rhs_dot_0 _ _).trans hk
      | ⟨1, _⟩ => exact rhs_dot_1 _ _)
    rw [el, er, mulf_apply, transpose_ix2_apply, mask_apply]
    rfl
  rw [Finset.sum_congr rfl fun k _ => hterm k]
  exact masked_sum (blockOf c) (fun i => x (ix2 r i)) (fun i => W (ix2 c i)) (fun i => if i.val / 512 = (blockOf c).val then (1 : EReal) else 0)
    (fun i h => if_pos h) (fun i h => if_neg h)

/-- The reference's result array is the layer of its three arguments. -/
theorem result_eq_layer (x : FVec Ideal S8192x2048 .f32) (W : FVec Ideal S2048x2048 .f32) (b : FVec Ideal S2048 .f32) :
    result (F := Ideal) x W b = layer x W b := by
  funext j
  obtain ⟨r, c, rfl⟩ : ∃ (r : Fin 8192) (c : Fin 2048), j = ix2 r c := ⟨j 0, j 1, eq_ix2 j⟩
  rw [result_apply, layer_ix2]

end Cert.ReferenceIdeal.RefValue

end
-- ==== Proof.lean ====
/-
  A block-diagonal linear layer: the kernel against the dense masked product.

  The reference computes x · (Wᵀ ⊙ mask) + b over all 2048 input features, where mask[i, c] is one when feature i and
  output c lie in the same block of 512 (it builds the mask from the features' and outputs' numbers divided by 512) and
  zero otherwise. The kernel never forms the mask: on a 4 × 8 grid it multiplies each 1024-row tile of x, restricted to
  the 512 features of one block, by the diagonal 512 × 512 tile of W of that block, transposed, and adds that block's
  biases. At the ideal values both are the same function of the arguments, entry by entry,
      out[r, c] = (∑ k < 512, x[r, 512·(c/512) + k] · W[c, 512·(c/512) + k]) + b[c]:
  for the kernel by reading each tile through its place in the arrays, the 32 tiles covering the result; for the
  reference because a weight times a zero of the mask contributes nothing to the long sum (on the extended reals
  a product with zero is zero whatever the other factor, so no finiteness of the inputs is used) and a weight times a
  one contributes the weight. The kernel's format changes are the identity at the ideal values, and the idealization
  rewrote nothing, so there is nothing to preserve beyond the text itself.
-/
import proofs.«122442_j74938589381030_1_alg».proof.Defs
import proofs.«122442_j74938589381030_1_alg».proof.Proof.Gen.Kernel
import proofs.«122442_j74938589381030_1_alg».proof.Proof.Gen.Kernel.Skeleton
import proofs.«122442_j74938589381030_1_alg».proof.Proof.Gen.Kernel.Launch
import proofs.«122442_j74938589381030_1_alg».proof.Proof.Gen.Kernel.Points
import proofs.«122442_j74938589381030_1_alg».proof.Proof.Gen.Kernel.Frame
import proofs.«122442_j74938589381030_1_alg».proof.Proof.Gen.KernelIdeal
import proofs.«122442_j74938589381030_1_alg».proof.Proof.Gen.KernelIdeal.Skeleton
import proofs.«122442_j74938589381030_1_alg».proof.Proof.Gen.KernelIdeal.Launch
import proofs.«122442_j74938589381030_1_alg».proof.Proof.Gen.KernelIdeal.Points
import proofs.«122442_j74938589381030_1_alg».proof.Proof.Gen.KernelIdeal.Frame
import proofs.«122442_j74938589381030_1_alg».proof.Proof.Gen.ReferenceIdeal
import proofs.«122442_j74938589381030_1_alg».proof.Proof.Gen.Pre_finite_inputs
import proofs.«122442_j74938589381030_1_alg».proof.Proof.KernelValue
import proofs.«122442_j74938589381030_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the result array at the layer of the (agreeing) arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.result_eq_layer, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
